-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 84
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x32, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x32, .f32⟩
  | .hbm, ⟨75, _⟩ => ⟨S1700000x1, .f32⟩
  | .hbm, ⟨76, _⟩ => ⟨S1700000x32, .f32⟩
  | .hbm, ⟨77, _⟩ => ⟨S1700000x32, .f32⟩
  | .hbm, ⟨78, _⟩ => ⟨S_, .f32⟩
  | .hbm, ⟨79, _⟩ => ⟨S100000x32, .f32⟩
  | .hbm, ⟨80, _⟩ => ⟨S1700000x1, .i32⟩
  | .hbm, ⟨81, _⟩ => ⟨S100000x32, .f32⟩
  | .hbm, ⟨82, _⟩ => ⟨S1x32, .f32⟩
  | .hbm, ⟨83, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Stages.lean ====
import proofs.«114913_j76905684402542_1_alg».proof.Proof.Gen.KernelIdeal.Frame
import proofs.«114913_j76905684402542_1_alg».proof.Proof.RefRead
import Idealize.ShloMosaic.Lib.Pipeline.Value
import Idealize.ShloMosaic.Lib.ValueIdx
import Idealize.ShloMosaic.Lib.StableHlo.Run

/-!
  The kernel program's buffers, boundary by boundary, as the reference's stages.

  Both programs compute the same graph convolution twice.  Around the four pipelined calls the kernel program runs
  the very host operations the reference runs: the edge lists with the self-loops appended (`src`, `dst`), the
  symmetric degree normalization (`norm`), and per layer a gather of the projected rows by `src`, the scaling by
  `norm` and the scatter-add by `dst`.  So it is enough to follow the kernel program's buffers from one boundary to
  the next and to meet, at each pipelined call, the reference's own operation:

  * the first call leaves `x · W1`, the reference's first `dot_general`;
  * the second leaves `max (agg1 + b1, 0)`, the reference's add of the broadcast bias followed by its `relu`;
  * the third leaves `h1 · W2`, the reference's second `dot_general`;
  * the fourth leaves `agg2 + b2`, the reference's last add.

  Between the calls the host operations are carried as they stand: each stretch's result is read off the fold of
  its operations, the buffers it reads are replaced by the stages already identified, and what remains is the
  reference's stage, by unfolding.  No law of arithmetic is used beyond `0 + s = s` inside the two products, so
  the precondition is never opened.
-/

set_option maxRecDepth 16384

noncomputable section

namespace Cert.KernelIdeal.Stages

open Cert.KernelIdeal Cert.KernelIdeal.Gen
open Idealize.ShloMosaic Idealize.ShloMosaic.TcCoe Idealize.SL.Sem Idealize.ShloMosaic.ValueIdx
open Cert.ReferenceIdeal.ReadP

variable {F : FTy → Type} [FloatOps F]
variable (m : (ℓ : Loc nD τ sig) → Buf (Elt F) ℓ) (ρ : Dev nD → PrngReg) (c : Dev nD)

/-- A buffer that no operation of a host stretch writes is, after the stretch, what it was before. -/
local macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## The arguments, at the first call's entry -/

theorem x_at3 : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

theorem w1_at3 : W3 m ρ c (Proc.devRef .tc main_arg2) = m ((c : Thread nD τ).loc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

theorem b1_at3 : W3 m ρ c (Proc.devRef .tc main_arg3) = m ((c : Thread nD τ).loc main_arg3) :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

theorem w2_at3 : W3 m ρ c (Proc.devRef .tc main_arg4) = m ((c : Thread nD τ).loc main_arg4) :=
  calc W3 m ρ c (Proc.devRef .tc main_arg4)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

theorem b2_at3 : W3 m ρ c (Proc.devRef .tc main_arg5) = m ((c : Thread nD τ).loc main_arg5) :=
  calc W3 m ρ c (Proc.devRef .tc main_arg5)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

/-! ## The edge lists and the normalization, at the first call's entry -/

/-- `src`: the edge sources with the self-loops appended. -/
theorem src_at3 : W3 m ρ c (Proc.devRef .tc main_v3) = val_main_v3 (F := F) (m ((c : Thread nD τ).loc main_arg1)) :=
  calc W3 m ρ c (Proc.devRef .tc main_v3)
    _ = W2 m ρ c (Proc.devRef .tc main_v3) := by host_keeps hostOps0_2
    _ = W1 m ρ c (Proc.devRef .tc main_v3) := by host_keeps hostOps0_1
    _ = val_main_v3 (F := F) (m ((c : Thread nD τ).loc main_arg1)) := by
      show StableHlo.after hostOps0 (W0 m ρ c) (Proc.devRef .tc main_v3) = _
      after_results_simp
      rfl

/-- `dst`: the edge targets with the self-loops appended. -/
theorem dst_at3 : W3 m ρ c (Proc.devRef .tc main_v6) = val_main_v6 (F := F) (m ((c : Thread nD τ).loc main_arg1)) :=
  calc W3 m ρ c (Proc.devRef .tc main_v6)
    _ = W2 m ρ c (Proc.devRef .tc main_v6) := by host_keeps hostOps0_2
    _ = W1 m ρ c (Proc.devRef .tc main_v6) := by host_keeps hostOps0_1
    _ = val_main_v6 (F := F) (m ((c : Thread nD τ).loc main_arg1)) := by
      show StableHlo.after hostOps0 (W0 m ρ c) (Proc.devRef .tc main_v6) = _
      after_results_simp
      rfl

/-- The host stretch that selects the inverse square root where the degree is positive, from any contents that hold
    the comparison, the inverse square roots and the zero: the reference's `where`. -/
theorem dinv_of (U : Valuation τ sig (Elt F)) (x1 : Vec F S2x1600000 .i32)
    (hp : U (Proc.devRef .tc main_v12) = val_main_v12 (F := F) x1) (hr : U (Proc.devRef .tc main_v13) = val_main_v13 (F := F) x1)
    (hz : U (Proc.devRef .tc main_cst_2) = val_main_cst_2 (F := F)) :
    StableHlo.after hostOps0_1 U (Proc.devRef .tc main_v14) = val_main_v14 (F := F) x1 := by
  after_results_simp
  simp only [StableHlo.TRef.ofBuf, StableHlo.TRef.toBuf, cast_eq]
  rw [hp, hr, hz]
  rfl

/-- The host stretch that gathers the inverse square-root degrees at both ends of every edge and multiplies them,
    from any contents that hold `src`, `dst` and those degrees: the reference's `norm`. -/
theorem norm_of (U : Valuation τ sig (Elt F)) (x1 : Vec F S2x1600000 .i32)
    (hs : U (Proc.devRef .tc main_v3) = val_main_v3 (F := F) x1) (hd : U (Proc.devRef .tc main_v6) = val_main_v6 (F := F) x1)
    (hv : U (Proc.devRef .tc main_v14) = val_main_v14 (F := F) x1) :
    StableHlo.after hostOps0_2 U (Proc.devRef .tc main_v29) = val_main_v29 (F := F) x1 := by
  after_results_simp
  rw [hs, hd, hv]
  rfl

/-- Which degrees are positive. -/
theorem positive_at1 : W1 m ρ c (Proc.devRef .tc main_v12) = val_main_v12 (F := F) (m ((c : Thread nD τ).loc main_arg1)) := by
  show StableHlo.after hostOps0 (W0 m ρ c) (Proc.devRef .tc main_v12) = _
  after_results_simp
  rfl

/-- The inverse square roots of the degrees. -/
theorem rsqrt_at1 : W1 m ρ c (Proc.devRef .tc main_v13) = val_main_v13 (F := F) (m ((c : Thread nD τ).loc main_arg1)) := by
  show StableHlo.after hostOps0 (W0 m ρ c) (Proc.devRef .tc main_v13) = _
  after_results_simp
  rfl

theorem zero_at1 : W1 m ρ c (Proc.devRef .tc main_cst_2) = val_main_cst_2 (F := F) := by
  show StableHlo.after hostOps0 (W0 m ρ c) (Proc.devRef .tc main_cst_2) = _
  after_results_simp
  rfl

theorem src_at1 : W1 m ρ c (Proc.devRef .tc main_v3) = val_main_v3 (F := F) (m ((c : Thread nD τ).loc main_arg1)) := by
  show StableHlo.after hostOps0 (W0 m ρ c) (Proc.devRef .tc main_v3) = _
  after_results_simp
  rfl

theorem dst_at1 : W1 m ρ c (Proc.devRef .tc main_v6) = val_main_v6 (F := F) (m ((c : Thread nD τ).loc main_arg1)) := by
  show StableHlo.after hostOps0 (W0 m ρ c) (Proc.devRef .tc main_v6) = _
  after_results_simp
  rfl

/-- The inverse square roots of the degrees, zero where a degree is not positive. -/
theorem dinv_at2 : W2 m ρ c (Proc.devRef .tc main_v14) = val_main_v14 (F := F) (m ((c : Thread nD τ).loc main_arg1)) :=
  dinv_of (W1 m ρ c) _ (positive_at1 m ρ c) (rsqrt_at1 m ρ c) (zero_at1 m ρ c)

theorem src_at2 : W2 m ρ c (Proc.devRef .tc main_v3) = val_main_v3 (F := F) (m ((c : Thread nD τ).loc main_arg1)) :=
  calc W2 m ρ c (Proc.devRef .tc main_v3)
    _ = W1 m ρ c (Proc.devRef .tc main_v3) := by host_keeps hostOps0_1
    _ = _ := src_at1 m ρ c

theorem dst_at2 : W2 m ρ c (Proc.devRef .tc main_v6) = val_main_v6 (F := F) (m ((c : Thread nD τ).loc main_arg1)) :=
  calc W2 m ρ c (Proc.devRef .tc main_v6)
    _ = W1 m ρ c (Proc.devRef .tc main_v6) := by host_keeps hostOps0_1
    _ = _ := dst_at1 m ρ c

/-- `norm`: the product of the two ends' inverse square-root degrees, edge by edge. -/
theorem norm_at3 : W3 m ρ c (Proc.devRef .tc main_v29) = val_main_v29 (F := F) (m ((c : Thread nD τ).loc main_arg1)) :=
  norm_of (W2 m ρ c) _ (src_at2 m ρ c) (dst_at2 m ρ c) (dinv_at2 m ρ c)

/-! ## The same buffers at the later boundaries: no call and no later stretch writes them -/

theorem src_at4 : W4 m ρ c (Proc.devRef .tc main_v3) = val_main_v3 (F := F) (m ((c : Thread nD τ).loc main_arg1)) :=
  (W4_of_ne m ρ c main_v3 (by decide)).trans (src_at3 m ρ c)
theorem dst_at4 : W4 m ρ c (Proc.devRef .tc main_v6) = val_main_v6 (F := F) (m ((c : Thread nD τ).loc main_arg1)) :=
  (W4_of_ne m ρ c main_v6 (by decide)).trans (dst_at3 m ρ c)
theorem norm_at4 : W4 m ρ c (Proc.devRef .tc main_v29) = val_main_v29 (F := F) (m ((c : Thread nD τ).loc main_arg1)) :=
  (W4_of_ne m ρ c main_v29 (by decide)).trans (norm_at3 m ρ c)
theorem b1_at4 : W4 m ρ c (Proc.devRef .tc main_arg3) = m ((c : Thread nD τ).loc main_arg3) :=
  (W4_of_ne m ρ c main_arg3 (by decide)).trans (b1_at3 m ρ c)

theorem src_at7 : W7 m ρ c (Proc.devRef .tc main_v3) = val_main_v3 (F := F) (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1
    _ = _ := src_at4 m ρ c
theorem dst_at7 : W7 m ρ c (Proc.devRef .tc main_v6) = val_main_v6 (F := F) (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1
    _ = _ := dst_at4 m ρ c
theorem norm_at7 : W7 m ρ c (Proc.devRef .tc main_v29) = val_main_v29 (F := F) (m ((c : Thread nD τ).loc main_arg1)) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by host_keeps hostOps1
    _ = _ := norm_at4 m ρ c
theorem w2_at6 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1
    _ = W3 m ρ c (Proc.devRef .tc main_arg4) := W4_of_ne m ρ c main_arg4 (by decide)
    _ = _ := w2_at3 m ρ c
theorem b2_at7 : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = _ := b2_at3 m ρ c

end Cert.KernelIdeal.Stages

end
-- ==== Proof.LibPlainDot.lean ====
/-
  A plain matrix product's contraction, read through coordinates.

  For dimension numbers that contract the left operand's second axis with the right operand's first,
  with no batch axes — the product of an [M, K] array with a [K, N] array — the contraction index is a
  single coordinate `k < K`, the left operand is read at (row of the output, k) and the right operand
  at (k, column of the output).  The sum over the contraction shape is therefore the familiar
  `∑ k, l (i, k) · r (k, j)`, whatever the record's name and whatever M, K and N are.
-/
import Idealize.ShloMosaic.PureOps.Ideal.Laws
import Idealize.ShloMosaic.Lib.ValueIdx

noncomputable section

namespace Cert.LibPlainDot

open Idealize.ShloMosaic Idealize.ShloMosaic.ValueIdx

variable {M K N : Nat} (d : DotDims (⟨2, ![M, K]⟩ : Shape) (⟨2, ![K, N]⟩ : Shape) (⟨2, ![M, N]⟩ : Shape))

/-- The left operand's row is the output's row. -/
theorem lhs_row (hb : d.lhsBatch = []) (hn : d.lhsNonContracting = [0]) (j : (⟨2, ![M, N]⟩ : Shape).Idx)
    (k : d.contr.Idx) : (d.lhsIdx j k 0).val = (j 0).val := by
  unfold DotDims.lhsIdx
  have h1 : (0 : Fin (⟨2, ![M, K]⟩ : Shape).rank) ∉ d.lhsBatch := by rw [hb]; exact List.not_mem_nil
  have h2 : (0 : Fin (⟨2, ![M, K]⟩ : Shape).rank) ∈ d.lhsNonContracting := by rw [hn]; exact List.mem_singleton.mpr rfl
  rw [dif_neg h1, dif_pos h2]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  exact key _ _ _ _ (by simp [hb, hn])

/-- The right operand's column is the output's column. -/
theorem rhs_col (hlb : d.lhsBatch = []) (hln : d.lhsNonContracting = [0]) (hb : d.rhsBatch = []) (hn : d.rhsNonContracting = [1])
    (j : (⟨2, ![M, N]⟩ : Shape).Idx) (k : d.contr.Idx) : (d.rhsIdx j k 1).val = (j 1).val := by
  unfold DotDims.rhsIdx
  have h1 : (1 : Fin (⟨2, ![K, N]⟩ : Shape).rank) ∉ d.rhsBatch := by rw [hb]; exact List.not_mem_nil
  have h2 : (1 : Fin (⟨2, ![K, N]⟩ : Shape).rank) ∈ d.rhsNonContracting := by rw [hn]; exact List.mem_singleton.mpr rfl
  rw [dif_neg h1, dif_pos h2]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  exact key _ _ _ _ (by simp [hlb, hln, hn])

/-- The contraction shape has one axis. -/
theorem contr_rank (hc : d.lhsContracting = [1]) : d.contr.rank = 1 := by rw [d.rank_contr, hc]; rfl

/-- Its extent is the shared dimension `K`. -/
theorem contr_size (hc : d.lhsContracting = [1]) :
    d.contr.size ⟨0, by rw [contr_rank d hc]; exact Nat.one_pos⟩ = K := by
  have h := d.size_contr 0 (by rw [hc]; exact Nat.one_pos)
  rw [h]
  simp [hc]

/-- The sum over the contraction shape is the sum over `k < K` of the left operand at (row, k) times the
    right operand at (k, column). -/
theorem sum_eq (hlc : d.lhsContracting = [1]) (hrc : d.rhsContracting = [0]) (hlb : d.lhsBatch = [])
    (hln : d.lhsNonContracting = [0]) (hrb : d.rhsBatch = []) (hrn : d.rhsNonContracting = [1])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K (contr_rank d hlc) (contr_size d hlc)).symm]
  refine Finset.sum_congr rfl fun k _ => ?_
  have hl : d.lhsIdx j ((contrEquiv1 d K (contr_rank d hlc) (contr_size d hlc)).symm k) = ix2 (j 0) k := by
    funext a
    apply Fin.ext
    match a with
    | ⟨0, _⟩ => exact lhs_row d hlb hln j _
    | ⟨1, _⟩ => exact (d.lhsIdx_val_of_single hlc j _).trans (contrEquiv1_symm_val d K _ _ k)
  have hr : d.rhsIdx j ((contrEquiv1 d K (contr_rank d hlc) (contr_size d hlc)).symm k) = ix2 k (j 1) := by
    funext a
    apply Fin.ext
    match a with
    | ⟨0, _⟩ => exact (d.rhsIdx_val_of_single hrc j _).trans (contrEquiv1_symm_val d K _ _ k)
    | ⟨1, _⟩ => exact rhs_col d hlb hln hrb hrn j _
  exact congrArg₂ (· * ·) (congrArg l hl) (congrArg r hr)

/-- A block product into a zero accumulator, at an output index: `∑ k, l (i, k) · r (k, j)`. -/
theorem matmul_zero_apply (hlc : d.lhsContracting = [1]) (hrc : d.rhsContracting = [0]) (hlb : d.lhsBatch = [])
    (hln : d.lhsNonContracting = [0]) (hrb : d.rhsBatch = []) (hrn : d.rhsNonContracting = [1])
    {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    matmul d prec l r (constant (⟨2, ![M, N]⟩ : Shape) .f32 0x00000000#32) j = ∑ k : Fin K, l (ix2 (j 0) k) * r (ix2 k (j 1)) :=
  (Ideal.matmul_constant_zero_apply d prec l r j).trans (sum_eq d hlc hrc hlb hln hrb hrn l r j)

/-- The host's general dot of the same dimension numbers, at an output index: the same sum. -/
theorem dotGeneral_apply (hlc : d.lhsContracting = [1]) (hrc : d.rhsContracting = [0]) (hlb : d.lhsBatch = [])
    (hln : d.lhsNonContracting = [0]) (hrb : d.rhsBatch = []) (hrn : d.rhsNonContracting = [1])
    {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    Host.dotGeneral d prec l r j = ∑ k : Fin K, l (ix2 (j 0) k) * r (ix2 k (j 1)) :=
  (Ideal.dotGeneral_apply d prec _ l r j).trans (sum_eq d hlc hrc hlb hln hrb hrn l r j)

end Cert.LibPlainDot

end
-- ==== Proof.Project1.lean ====
import proofs.«114913_j76905684402542_1_alg».proof.Proof.Gen.KernelIdeal.Frame
import proofs.«114913_j76905684402542_1_alg».proof.Proof.LibPlainDot
import Idealize.ShloMosaic.Lib.Pipeline.Value
import Idealize.ShloMosaic.Lib.ValueIdx

/-!
  The first projection, `x · W1`, as the first pipelined call leaves it.

  The call walks the 100000 rows of `x` in twenty blocks of 5000 rows; each block is multiplied, whole, by the
  64×64 weight matrix (rounded to bf16 on the chip, which at the ideal instance changes nothing) into a zero
  accumulator, and written back to the same twenty row blocks of the output.  Entry (r, j) of block `t` is therefore
  `∑ k, x (5000 t + r, k) · W (k, j)`: the block of ONE whole-array function, the plain matrix product, so the output
  array after the call is that product.
-/

set_option maxRecDepth 16384

noncomputable section

namespace Cert.KernelIdeal.Project1

open Cert.KernelIdeal Cert.KernelIdeal.Gen
open Idealize.ShloMosaic Idealize.ShloMosaic.TcCoe Idealize.SL.Sem Idealize.ShloMosaic.ValueIdx
open Idealize.ShloMosaic.Pipeline (Dat)

/-- The product of a 100000×64 array with a 64×64 array, entry by entry. -/
def prod (x : Vec Ideal S100000x64 .f32) (w : Vec Ideal S64x64 .f32) : Vec Ideal S100000x64 .f32 :=
  fun i => ∑ k : Fin 64, x (ix2 (i 0) k) * w (ix2 k (i 1))

theorem zero_offsets : (![0, 0] : Fin 2 → Nat) = fun _ => 0 := funext fun a => by fin_cases a <;> rfl

/-- The body's one stored value, at an entry of the block: the row of the loaded `x` block times the column of the
    loaded weights (the bf16 roundings are the identity here, the accumulator starts at zero). -/
theorem payload_apply (x0 : Vec Ideal S5000x64 .f32) (x1 : Vec Ideal S64x64 .f32) (j : S5000x64.Idx) :
    k0_pay1 (F := Ideal) x0 x1 j = ∑ k : Fin 64, x0 (ix2 (j 0) k) * x1 (ix2 k (j 1)) := by
  unfold k0_pay1
  exact Cert.LibPlainDot.matmul_zero_apply (M := 5000) (K := 64) (N := 64) dot_S5000x64_S64x64_S5000x64_1_0_0_1_n_n
    rfl rfl rfl rfl rfl rfl none _ _ j

/-- The three windows' block indices at a grid point: the `x` block and the output block are block `t` of the rows,
    the weights are one block. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

variable (V : (c : Dev nD) → (b : Ref sig .tc) → Buf (Elt Ideal) ((c : Thread nD τ).loc b))

/-- What grid point `t` writes back is block `t` of the product of the arrays the call finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S64x64) zero_offsets]
  obtain ⟨e0, e1, e2, e3, e4, e5⟩ := block_indices t
  funext j
  show k0_pay1 (F := Ideal) (iblk0 V c 0 t) (iblk0 V c 1 t) j = prod (V c main_arg0) (V c main_arg2) (((cfg0.win 2).blk t).view.emb j)
  rw [payload_apply]
  unfold prod
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have hw : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [hx, hw]

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row `r` of the output lies in block `r / 5000`: the twenty blocks cover the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨e0, e1, e2, e3, e4, e5⟩ := block_indices t
  have e5' : win0_2.index t (0 : Fin 2) = (i 0).val / 5000 := e5
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the call: the product of the arrays the call finds. -/
theorem array_eq (c : Dev nD) :
    (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Project1

end
-- ==== Proof.Activate1.lean ====
import proofs.«114913_j76905684402542_1_alg».proof.Proof.Gen.KernelIdeal.Frame
import Idealize.ShloMosaic.Lib.Pipeline.Value
import Idealize.ShloMosaic.Lib.ValueIdx
import Idealize.ShloMosaic.Lib.ValueLayout

/-!
  The first layer's epilogue, `max (agg + b1, 0)`, as the second pipelined call leaves it.

  The call walks the 100000 rows of the aggregated messages in twenty blocks of 5000 rows; to each block it adds
  the bias, held as one row of 64 entries and repeated down the rows, and clamps the sum below at zero.  Entry
  (r, j) of block `t` is `max (agg (5000 t + r, j) + b (0, j), 0)`: the block of one whole-array function, so the
  output array after the call is that function of the two arrays the call finds.
-/

set_option maxRecDepth 16384

noncomputable section

namespace Cert.KernelIdeal.Activate1

open Cert.KernelIdeal Cert.KernelIdeal.Gen
open Idealize.ShloMosaic Idealize.ShloMosaic.TcCoe Idealize.SL.Sem Idealize.ShloMosaic.ValueIdx
open Idealize.ShloMosaic.Pipeline (Dat)

/-- Every row plus the one bias row, clamped below at zero. -/
def biasRelu (x : Vec Ideal S100000x64 .f32) (b : Vec Ideal S1x64 .f32) : Vec Ideal S100000x64 .f32 :=
  fun i => max (x i + b (ix2 (0 : Fin 1) (i 1))) (Ideal.ofBits .f32 0x00000000#32)

theorem zero_offsets : (![0, 0] : Fin 2 → Nat) = fun _ => 0 := funext fun a => by fin_cases a <;> rfl

/-- The body's one stored value at an entry of the block. -/
theorem payload_apply (x0 : Vec Ideal S5000x64 .f32) (x1 : Vec Ideal S1x64 .f32) (p : Fin 5000) (q : Fin 64) :
    k1_pay1 (F := Ideal) x0 x1 (ix2 p q) = max (x0 (ix2 p q) + x1 (ix2 (0 : Fin 1) q)) (Ideal.ofBits .f32 0x00000000#32) := by
  unfold k1_pay1
  simp only [shapeCast_self]
  rw [maximumf_apply, addf_apply, broadcast_apply, broadcastTo_1b_ab_apply]
  rfl

/-- The three windows' block indices at a grid point: the input block and the output block are block `t` of the
    rows, the bias row is one block. -/
theorem block_indices : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

variable (V : (c : Dev nD) → (b : Ref sig .tc) → Buf (Elt Ideal) ((c : Thread nD τ).loc b))

/-- What grid point `t` writes back is block `t` of `biasRelu` of the arrays the call finds. -/
theorem flushed_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨e0, e1, e2, e3, e4, e5⟩ := block_indices t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (ix2 p q) = biasRelu (V c main_v43) (V c main_v44) (((cfg1.win 2).blk t).view.emb (ix2 p q))
  rw [payload_apply]
  unfold biasRelu
  have hx : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have hb : iblk1 V c 1 t (ix2 (0 : Fin 1) q) = V c main_v44 (ix2 (0 : Fin 1) ((((cfg1.win 2).blk t).view.emb (ix2 p q)) 1)) := by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [hx, hb]

/-- An index of the output array is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Row `r` of the output lies in block `r / 5000`: the twenty blocks cover the array. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨e0, e1, e2, e3, e4, e5⟩ := block_indices t
  have e5' : win1_2.index t (0 : Fin 2) = (i 0).val / 5000 := e5
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the call: `biasRelu` of the arrays the call finds. -/
theorem array_eq (c : Dev nD) :
    (dat1 V c).arrAt 2 cfg1.N = biasRelu (V c main_v43) (V c main_v44) :=
  (dat1 V c).arrAt_eq_of_cover 2 (biasRelu (V c main_v43) (V c main_v44)) (fun t _ => flushed_eq V c t) cover

end Cert.KernelIdeal.Activate1

end
-- ==== Proof.Layer1.lean ====
import proofs.«114913_j76905684402542_1_alg».proof.Proof.Stages
import proofs.«114913_j76905684402542_1_alg».proof.Proof.Project1
import proofs.«114913_j76905684402542_1_alg».proof.Proof.Activate1

/-!
  The first layer, boundary by boundary: the first call's product is the reference's first `dot_general`; the
  host stretch after it gathers, scales and scatter-adds exactly as the reference does; the second call adds the
  bias row and clamps at zero, which the reference does by adding the bias broadcast to every row and taking the
  maximum with a broadcast zero.
-/

set_option maxRecDepth 16384

noncomputable section

namespace Cert.KernelIdeal.Layer1

open Cert.KernelIdeal Cert.KernelIdeal.Gen Cert.KernelIdeal.Stages
open Idealize.ShloMosaic Idealize.ShloMosaic.TcCoe Idealize.SL.Sem Idealize.ShloMosaic.ValueIdx
open Cert.ReferenceIdeal.ReadP

/-- The plain product of a 100000×64 array with a 64×64 array is the reference's first `dot_general`. -/
theorem prod_eq_ref (x0 : Vec Ideal S100000x64 .f32) (x2 : Vec Ideal S64x64 .f32) :
    Project1.prod x0 x2 = val_main_v30 (F := Ideal) x0 x2 := by
  funext i
  rw [val_main_v30_apply]
  show (∑ k : Fin 64, x0 (ix2 (i 0) k) * x2 (ix2 k (i 1))) = _
  refine Finset.sum_congr rfl fun k _ => ?_
  exact congrArg₂ (· * ·)
    (congrArg x0 (funext fun a => by match a with | ⟨0, _⟩ => rfl | ⟨1, _⟩ => rfl))
    (congrArg x2 (funext fun a => by match a with | ⟨0, _⟩ => rfl | ⟨1, _⟩ => rfl))

/-- A vector of `n` entries cast to one row of `n` entries, read in that row. -/
theorem rowCast_apply {α : Type} {n : Nat} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

/-- Adding the bias row to every row and clamping at zero is the reference's broadcast, add and `relu`. -/
theorem biasRelu_eq_ref (x0 : Vec Ideal S100000x64 .f32) (x1 : Vec Ideal S2x1600000 .i32) (x2 : Vec Ideal S64x64 .f32) (x3 : Vec Ideal S64 .f32) :
    Activate1.biasRelu (val_main_v43 (F := Ideal) x0 x1 x2) (shapeCast S1x64 x3 shapeCasts_S64_S1x64)
      = val_main_v47 (F := Ideal) x0 x1 x2 x3 := by
  funext i
  rw [val_main_v47_apply, val_main_v46_apply, val_main_v45_apply, val_main_v44_apply, val_main_call1_v0_apply, val_main_call1_cst_apply]
  have e : shapeCast S1x64 x3 shapeCasts_S64_S1x64 (ix2 (0 : Fin 1) (i 1 : Fin 64)) = x3 (idx_main_v44 (idx_main_v45 i)) :=
    (rowCast_apply (n := 64) x3 shapeCasts_S64_S1x64 (i 1)).trans
      (congrArg x3 (funext fun a => by match a with | ⟨0, _⟩ => rfl))
  exact congrArg (fun t => max (val_main_v43 (F := Ideal) x0 x1 x2 i + t) (Ideal.ofBits .f32 0x00000000#32)) e

section HostStretch
variable {F : FTy → Type} [FloatOps F]

/-- The host stretch between the first call and the second, from any contents that hold `src`, `dst`, `norm` and
    the projected rows: the gather by `src`, the scaling by `norm` and the scatter-add by `dst` are the reference's,
    at any float family. -/
theorem agg1_of (U : Valuation τ sig (Elt F)) (x0 : Vec F S100000x64 .f32) (x1 : Vec F S2x1600000 .i32) (x2 : Vec F S64x64 .f32)
    (hs : U (Proc.devRef .tc main_v3) = val_main_v3 (F := F) x1) (hd : U (Proc.devRef .tc main_v6) = val_main_v6 (F := F) x1)
    (hn : U (Proc.devRef .tc main_v29) = val_main_v29 (F := F) x1) (hh : U (Proc.devRef .tc main_v30) = val_main_v30 (F := F) x0 x2) :
    StableHlo.after hostOps1 U (Proc.devRef .tc main_v43) = val_main_v43 (F := F) x0 x1 x2 := by
  after_results_simp
  rw [hs, hd, hn, hh]
  rfl

/-- The same stretch reshapes the bias vector to one row. -/
theorem b1row_of (U : Valuation τ sig (Elt F)) (x3 : Vec F S64 .f32) (hb : U (Proc.devRef .tc main_arg3) = x3) :
    StableHlo.after hostOps1 U (Proc.devRef .tc main_v44) = shapeCast S1x64 x3 shapeCasts_S64_S1x64 := by
  after_results_simp
  rw [hb]
  rfl

end HostStretch

variable (m : (ℓ : Loc nD τ sig) → Buf (Elt Ideal) ℓ) (ρ : Dev nD → PrngReg) (c : Dev nD)

/-- After the first call its output holds the reference's first `dot_general` of the arguments. -/
theorem h0_at4 : W4 m ρ c (Proc.devRef .tc main_v30)
    = val_main_v30 (F := Ideal) (m ((c : Thread nD τ).loc main_arg0)) (m ((c : Thread nD τ).loc main_arg2)) :=
  (W4_arr m ρ c 2).trans <| (Project1.array_eq (V3 m ρ) c).trans <|
    (congrArg₂ Project1.prod (x_at3 m ρ c) (w1_at3 m ρ c)).trans (prod_eq_ref _ _)

/-- The first layer's aggregated messages, at the second call's entry. -/
theorem agg1_at5 : W5 m ρ c (Proc.devRef .tc main_v43)
    = val_main_v43 (F := Ideal) (m ((c : Thread nD τ).loc main_arg0)) (m ((c : Thread nD τ).loc main_arg1)) (m ((c : Thread nD τ).loc main_arg2)) :=
  agg1_of (W4 m ρ c) _ _ _ (src_at4 m ρ c) (dst_at4 m ρ c) (norm_at4 m ρ c) (h0_at4 m ρ c)

/-- The first bias as one row, at the second call's entry. -/
theorem b1row_at5 : W5 m ρ c (Proc.devRef .tc main_v44)
    = shapeCast S1x64 (m ((c : Thread nD τ).loc main_arg3)) shapeCasts_S64_S1x64 :=
  b1row_of (W4 m ρ c) _ (b1_at4 m ρ c)

/-- After the second call its output holds the reference's hidden features `relu (agg1 + b1)`. -/
theorem h1_at6 : W6 m ρ c (Proc.devRef .tc main_v45)
    = val_main_v47 (F := Ideal) (m ((c : Thread nD τ).loc main_arg0)) (m ((c : Thread nD τ).loc main_arg1)) (m ((c : Thread nD τ).loc main_arg2)) (m ((c : Thread nD τ).loc main_arg3)) :=
  (W6_arr m ρ c 2).trans <| (Activate1.array_eq (V5 m ρ) c).trans <|
    (congrArg₂ Activate1.biasRelu (agg1_at5 m ρ c) (b1row_at5 m ρ c)).trans (biasRelu_eq_ref _ _ _ _)

end Cert.KernelIdeal.Layer1

end
-- ==== Proof.Project2.lean ====
import proofs.«114913_j76905684402542_1_alg».proof.Proof.Gen.KernelIdeal.Frame
import proofs.«114913_j76905684402542_1_alg».proof.Proof.LibPlainDot
import Idealize.ShloMosaic.Lib.Pipeline.Value
import Idealize.ShloMosaic.Lib.ValueIdx

/-!
  The second projection, `h1 · W2`, as the third pipelined call leaves it.

  Twenty blocks of 5000 rows of the hidden features, each multiplied whole by the 64×32 weight matrix into a zero
  accumulator and written back to the same row blocks of the 100000×32 output.  Entry (r, j) of block `t` is
  `∑ k, h (5000 t + r, k) · W (k, j)`, the block of the plain matrix product, so the output array after the call is that
  product.
-/

set_option maxRecDepth 16384

noncomputable section

namespace Cert.KernelIdeal.Project2

open Cert.KernelIdeal Cert.KernelIdeal.Gen
open Idealize.ShloMosaic Idealize.ShloMosaic.TcCoe Idealize.SL.Sem Idealize.ShloMosaic.ValueIdx
open Idealize.ShloMosaic.Pipeline (Dat)

/-- The product of a 100000×64 array with a 64×32 array, entry by entry. -/
def prod (x : Vec Ideal S100000x64 .f32) (w : Vec Ideal S64x32 .f32) : Vec Ideal S100000x32 .f32 :=
  fun i => ∑ k : Fin 64, x (ix2 (i 0) k) * w (ix2 k (i 1))

theorem zero_offsets : (![0, 0] : Fin 2 → Nat) = fun _ => 0 := funext fun a => by fin_cases a <;> rfl

/-- The body's one stored value, at an entry of the block: the row of the loaded feature block times the column of
    the loaded weights. -/
theorem payload_apply (x0 : Vec Ideal S5000x64 .f32) (x1 : Vec Ideal S64x32 .f32) (j : S5000x32.Idx) :
    k2_pay1 (F := Ideal) x0 x1 j = ∑ k : Fin 64, x0 (ix2 (j 0) k) * x1 (ix2 k (j 1)) := by
  unfold k2_pay1
  simp only [shapeCast_self]
  exact Cert.LibPlainDot.matmul_zero_apply (M := 5000) (K := 64) (N := 32) dot_S5000x64_S64x32_S5000x32_1_0_0_1_n_n
    rfl rfl rfl rfl rfl rfl none _ _ j

/-- The three windows' block indices at a grid point. -/
theorem block_indices : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

variable (V : (c : Dev nD) → (b : Ref sig .tc) → Buf (Elt Ideal) ((c : Thread nD τ).loc b))

/-- What grid point `t` writes back is block `t` of the product of the arrays the call finds. -/
theorem flushed_eq (c : Dev nD) (t : Fin cfg2.N) :
    (dat2 V c).flushed 2 t = ((cfg2.win 2).blk t).view.read (Elt Ideal) (prod (V c main_v45) (V c main_arg4)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x32) zero_offsets]
  obtain ⟨e0, e1, e2, e3, e4, e5⟩ := block_indices t
  funext j
  show k2_pay1 (F := Ideal) (iblk2 V c 0 t) (iblk2 V c 1 t) j = prod (V c main_v45) (V c main_arg4) (((cfg2.win 2).blk t).view.emb j)
  rw [payload_apply]
  unfold prod
  refine Finset.sum_congr rfl fun k _ => ?_
  have hx : iblk2 V c 0 t (ix2 (j 0) k) = V c main_v45 (ix2 ((((cfg2.win 2).blk t).view.emb j) 0) k) := by
    show V c main_v45 (((cfg2.win 0).blk t).view.emb (ix2 (j 0) k)) = _
    refine congrArg (V c main_v45) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have hw : iblk2 V c 1 t (ix2 k (j 1)) = V c main_arg4 (ix2 k ((((cfg2.win 2).blk t).view.emb j) 1)) := by
    show V c main_arg4 (((cfg2.win 1).blk t).view.emb (ix2 k (j 1))) = _
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  rw [hx, hw]

/-- An index of the output array is in point `t`'s block iff each coordinate is in the block's range on its axis. -/
theorem mem_block (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v46).slice (win2_2.rect t)).set ↔ _
  rw [View.set_slice_whole, Rect.mem_set_unit]
  exact Iff.rfl

/-- Row `r` of the output lies in block `r / 5000`: the twenty blocks cover the array. -/
theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  let t : Fin cfg2.N := ⟨(i 0).val / 5000, by show (i 0).val / 5000 < 20; omega⟩
  obtain ⟨e0, e1, e2, e3, e4, e5⟩ := block_indices t
  have e5' : win2_2.index t (0 : Fin 2) = (i 0).val / 5000 := e5
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- The output array after the call: the product of the arrays the call finds. -/
theorem array_eq (c : Dev nD) :
    (dat2 V c).arrAt 2 cfg2.N = prod (V c main_v45) (V c main_arg4) :=
  (dat2 V c).arrAt_eq_of_cover 2 (prod (V c main_v45) (V c main_arg4)) (fun t _ => flushed_eq V c t) cover

end Cert.KernelIdeal.Project2

end
-- ==== Proof.Bias2.lean ====
import proofs.«114913_j76905684402542_1_alg».proof.Proof.Gen.KernelIdeal.Frame
import Idealize.ShloMosaic.Lib.Pipeline.Value
import Idealize.ShloMosaic.Lib.ValueIdx
import Idealize.ShloMosaic.Lib.ValueLayout

/-!
  The second layer's epilogue, `agg + b2`, as the fourth pipelined call leaves it.

  Twenty blocks of 5000 rows of the aggregated messages; to each block the bias, one row of 32 entries repeated
  down the rows, is added.  Entry (r, j) of block `t` is `agg (5000 t + r, j) + b (0, j)`: the block of one whole-array
  function, so the output array after the call is that function of the two arrays the call finds.
-/

set_option maxRecDepth 16384

noncomputable section

namespace Cert.KernelIdeal.Bias2

open Cert.KernelIdeal Cert.KernelIdeal.Gen
open Idealize.ShloMosaic Idealize.ShloMosaic.TcCoe Idealize.SL.Sem Idealize.ShloMosaic.ValueIdx
open Idealize.ShloMosaic.Pipeline (Dat)

/-- Every row plus the one bias row. -/
def addRow (x : Vec Ideal S100000x32 .f32) (b : Vec Ideal S1x32 .f32) : Vec Ideal S100000x32 .f32 :=
  fun i => x i + b (ix2 (0 : Fin 1) (i 1))

theorem zero_offsets : (![0, 0] : Fin 2 → Nat) = fun _ => 0 := funext fun a => by fin_cases a <;> rfl

/-- The body's one stored value at an entry of the block. -/
theorem payload_apply (x0 : Vec Ideal S5000x32 .f32) (x1 : Vec Ideal S1x32 .f32) (p : Fin 5000) (q : Fin 32) :
    k3_pay1 (F := Ideal) x0 x1 (ix2 p q) = x0 (ix2 p q) + x1 (ix2 (0 : Fin 1) q) := by
  unfold k3_pay1
  simp only [shapeCast_self]
  rw [addf_apply, broadcastTo_1b_ab_apply]

/-- The three windows' block indices at a grid point. -/
theorem block_indices : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) = t.val :=
  (by decide +kernel : ∀ t : Fin grid3.N, _)

variable (V : (c : Dev nD) → (b : Ref sig .tc) → Buf (Elt Ideal) ((c : Thread nD τ).loc b))

/-- What grid point `t` writes back is block `t` of `addRow` of the arrays the call finds. -/
theorem flushed_eq (c : Dev nD) (t : Fin cfg3.N) :
    (dat3 V c).flushed 2 t = ((cfg3.win 2).blk t).view.read (Elt Ideal) (addRow (V c main_v59) (V c main_v60)) := by
  show (cfg3.win 2).cut (grid3.coords t) ((dat3 V c).after 2 t) = _
  rw [after3_2]
  unfold out3_2
  rw [View.canon_unit_zero zero_offsets]
  simp only [View.ld_unit_zero (S := S5000x32) zero_offsets, View.ld_unit_zero (S := S1x32) zero_offsets]
  obtain ⟨e0, e1, e2, e3, e4, e5⟩ := block_indices t
  funext j
  obtain ⟨p, q, rfl⟩ : ∃ (p : Fin 5000) (q : Fin 32), j = ix2 p q := ⟨j 0, j 1, eq_ix2 j⟩
  show k3_pay1 (F := Ideal) (iblk3 V c 0 t) (iblk3 V c 1 t) (ix2 p q) = addRow (V c main_v59) (V c main_v60) (((cfg3.win 2).blk t).view.emb (ix2 p q))
  rw [payload_apply]
  unfold addRow
  have hx : iblk3 V c 0 t (ix2 p q) = V c main_v59 (((cfg3.win 2).blk t).view.emb (ix2 p q)) := by
    show V c main_v59 (((cfg3.win 0).blk t).view.emb (ix2 p q)) = _
    refine congrArg (V c main_v59) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 32 + 1 * q.val = win3_2.index t (1 : Fin 2) * 32 + 1 * q.val; omega
  have hb : iblk3 V c 1 t (ix2 (0 : Fin 1) q) = V c main_v60 (ix2 (0 : Fin 1) ((((cfg3.win 2).blk t).view.emb (ix2 p q)) 1)) := by
    show V c main_v60 (((cfg3.win 1).blk t).view.emb (ix2 (0 : Fin 1) q)) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 32 + 1 * q.val = win3_2.index t (1 : Fin 2) * 32 + 1 * q.val; omega
  rw [hx, hb]

/-- An index of the output array is in point `t`'s block iff each coordinate is in the block's range on its axis. -/
theorem mem_block (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v61).slice (win3_2.rect t)).set ↔ _
  rw [View.set_slice_whole, Rect.mem_set_unit]
  exact Iff.rfl

/-- Row `r` of the output lies in block `r / 5000`: the twenty blocks cover the array. -/
theorem cover (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  let t : Fin cfg3.N := ⟨(i 0).val / 5000, by show (i 0).val / 5000 < 20; omega⟩
  obtain ⟨e0, e1, e2, e3, e4, e5⟩ := block_indices t
  have e5' : win3_2.index t (0 : Fin 2) = (i 0).val / 5000 := e5
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- The output array after the call: `addRow` of the arrays the call finds. -/
theorem array_eq (c : Dev nD) :
    (dat3 V c).arrAt 2 cfg3.N = addRow (V c main_v59) (V c main_v60) :=
  (dat3 V c).arrAt_eq_of_cover 2 (addRow (V c main_v59) (V c main_v60)) (fun t _ => flushed_eq V c t) cover

end Cert.KernelIdeal.Bias2

end
-- ==== Proof.Layer2.lean ====
import proofs.«114913_j76905684402542_1_alg».proof.Proof.Layer1
import proofs.«114913_j76905684402542_1_alg».proof.Proof.Project2
import proofs.«114913_j76905684402542_1_alg».proof.Proof.Bias2

/-!
  The second layer, boundary by boundary: the third call's product of the hidden features with `W2` is the
  reference's second `dot_general`; the host stretch after it gathers, scales and scatter-adds as the reference
  does; the fourth call adds the bias row, which the reference does by adding the bias broadcast to every row.
  The fourth call's output is the program's result.
-/

set_option maxRecDepth 16384

noncomputable section

namespace Cert.KernelIdeal.Layer2

open Cert.KernelIdeal Cert.KernelIdeal.Gen Cert.KernelIdeal.Stages Cert.KernelIdeal.Layer1
open Idealize.ShloMosaic Idealize.ShloMosaic.TcCoe Idealize.SL.Sem Idealize.ShloMosaic.ValueIdx
open Cert.ReferenceIdeal.ReadP

/-- The plain product of the hidden features with a 64×32 array is the reference's second `dot_general`. -/
theorem prod_eq_ref (x0 : Vec Ideal S100000x64 .f32) (x1 : Vec Ideal S2x1600000 .i32) (x2 : Vec Ideal S64x64 .f32) (x3 : Vec Ideal S64 .f32)
    (x4 : Vec Ideal S64x32 .f32) :
    Project2.prod (val_main_v47 (F := Ideal) x0 x1 x2 x3) x4 = val_main_v48 (F := Ideal) x0 x1 x2 x3 x4 := by
  funext i
  rw [val_main_v48_apply]
  generalize val_main_v47 (F := Ideal) x0 x1 x2 x3 = y
  show (∑ k : Fin 64, y (ix2 (i 0) k) * x4 (ix2 k (i 1))) = _
  refine Finset.sum_congr rfl fun k _ => ?_
  exact congrArg₂ (· * ·)
    (congrArg y (funext fun a => by match a with | ⟨0, _⟩ => rfl | ⟨1, _⟩ => rfl))
    (congrArg x4 (funext fun a => by match a with | ⟨0, _⟩ => rfl | ⟨1, _⟩ => rfl))

/-- Adding the bias row to every row is the reference's broadcast and add. -/
theorem addRow_eq_ref (x0 : Vec Ideal S100000x64 .f32) (x1 : Vec Ideal S2x1600000 .i32) (x2 : Vec Ideal S64x64 .f32) (x3 : Vec Ideal S64 .f32)
    (x4 : Vec Ideal S64x32 .f32) (x5 : Vec Ideal S32 .f32) :
    Bias2.addRow (val_main_v61 (F := Ideal) x0 x1 x2 x3 x4) (shapeCast S1x32 x5 shapeCasts_S32_S1x32)
      = val_main_v64 (F := Ideal) x0 x1 x2 x3 x4 x5 := by
  funext i
  rw [val_main_v64_apply, val_main_v63_apply, val_main_v62_apply]
  have e : shapeCast S1x32 x5 shapeCasts_S32_S1x32 (ix2 (0 : Fin 1) (i 1 : Fin 32)) = x5 (idx_main_v62 (idx_main_v63 i)) :=
    (rowCast_apply (n := 32) x5 shapeCasts_S32_S1x32 (i 1)).trans
      (congrArg x5 (funext fun a => by match a with | ⟨0, _⟩ => rfl))
  exact congrArg (fun t => val_main_v61 (F := Ideal) x0 x1 x2 x3 x4 i + t) e

section HostStretch
variable {F : FTy → Type} [FloatOps F]

/-- The host stretch between the third call and the fourth, from any contents that hold `src`, `dst`, `norm` and
    the projected rows: gather, scaling and scatter-add are the reference's, at any float family. -/
theorem agg2_of (U : Valuation τ sig (Elt F)) (x0 : Vec F S100000x64 .f32) (x1 : Vec F S2x1600000 .i32) (x2 : Vec F S64x64 .f32)
    (x3 : Vec F S64 .f32) (x4 : Vec F S64x32 .f32)
    (hs : U (Proc.devRef .tc main_v3) = val_main_v3 (F := F) x1) (hd : U (Proc.devRef .tc main_v6) = val_main_v6 (F := F) x1)
    (hn : U (Proc.devRef .tc main_v29) = val_main_v29 (F := F) x1)
    (hh : U (Proc.devRef .tc main_v46) = val_main_v48 (F := F) x0 x1 x2 x3 x4) :
    StableHlo.after hostOps3 U (Proc.devRef .tc main_v59) = val_main_v61 (F := F) x0 x1 x2 x3 x4 := by
  after_results_simp
  rw [hs, hd, hn, hh]
  rfl

/-- The same stretch reshapes the bias vector to one row. -/
theorem b2row_of (U : Valuation τ sig (Elt F)) (x5 : Vec F S32 .f32) (hb : U (Proc.devRef .tc main_arg5) = x5) :
    StableHlo.after hostOps3 U (Proc.devRef .tc main_v60) = shapeCast S1x32 x5 shapeCasts_S32_S1x32 := by
  after_results_simp
  rw [hb]
  rfl

end HostStretch

variable (m : (ℓ : Loc nD τ sig) → Buf (Elt Ideal) ℓ) (ρ : Dev nD → PrngReg) (c : Dev nD)

/-- After the third call its output holds the reference's second `dot_general`. -/
theorem h2_at7 : W7 m ρ c (Proc.devRef .tc main_v46)
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans <| (Project2.array_eq (V6 m ρ) c).trans <|
    (congrArg₂ Project2.prod (h1_at6 m ρ c) (w2_at6 m ρ c)).trans (prod_eq_ref _ _ _ _ _)

/-- The second layer's aggregated messages, at the fourth call's entry. -/
theorem agg2_at8 : W8 m ρ c (Proc.devRef .tc main_v59)
    = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  agg2_of (W7 m ρ c) _ _ _ _ _ (src_at7 m ρ c) (dst_at7 m ρ c) (norm_at7 m ρ c) (h2_at7 m ρ c)

/-- The second bias as one row, at the fourth call's entry. -/
theorem b2row_at8 : W8 m ρ c (Proc.devRef .tc main_v60)
    = shapeCast S1x32 (m ((c : Thread nD τ).loc main_arg5)) shapeCasts_S32_S1x32 :=
  b2row_of (W7 m ρ c) _ (b2_at7 m ρ c)

/-- After the fourth call the result array holds the reference's result term of the arguments. -/
theorem out_at9 : W9 m ρ c (Proc.devRef .tc main_v61)
    = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans <| (Bias2.array_eq (V8 m ρ) c).trans <|
    (congrArg₂ Bias2.addRow (agg2_at8 m ρ c) (b2row_at8 m ρ c)).trans (addRow_eq_ref _ _ _ _ _ _)

end Cert.KernelIdeal.Layer2

end
-- ==== Proof.lean ====
/-
  Two-layer graph convolution: the kernel program against its jnp reference, over the extended reals.

  Both programs build the same edge lists (the given edges with a self-loop per node), the same symmetric
  normalization `norm_e = deg(src_e)^(-1/2) · deg(dst_e)^(-1/2)`, and apply twice
  `out_d = ∑_{e : dst_e = d} norm_e · (h · W)_{src_e} + b`, with a `relu` between the layers.  The kernel program
  computes the two dense projections `h · W` and the two bias epilogues in four pipelined calls over twenty blocks
  of 5000 rows; everything between the calls is the reference's own sequence of host operations.

  At the ideal instance a change of float format is the identity and a block product into a zero accumulator is
  the plain sum `∑ k, h (r, k) · W (k, j)`, which is also what the reference's `dot_general` is; the bias epilogues
  are pointwise.  So each call's output array is one whole-array function of its inputs (Project1, Activate1,
  Project2, Bias2), equal to the reference's corresponding stage, and the kernel program's result buffer, followed
  boundary by boundary (Stages, Layer1, Layer2), holds the reference's result term of the same arguments.  The
  reference's run is its operations' composed term (RefRun, RefRead).  No arithmetic law beyond `0 + s = s` is
  used, so the finiteness precondition is not needed for the value; nothing was rewritten by the idealization,
  so `preserves` holds trivially.
-/
import proofs.«114913_j76905684402542_1_alg».proof.Defs
import proofs.«114913_j76905684402542_1_alg».proof.Proof.Gen.Kernel
import proofs.«114913_j76905684402542_1_alg».proof.Proof.Gen.Kernel.Skeleton
import proofs.«114913_j76905684402542_1_alg».proof.Proof.Gen.Kernel.Launch
import proofs.«114913_j76905684402542_1_alg».proof.Proof.Gen.Kernel.Points
import proofs.«114913_j76905684402542_1_alg».proof.Proof.Gen.Kernel.Frame
import proofs.«114913_j76905684402542_1_alg».proof.Proof.Gen.KernelIdeal
import proofs.«114913_j76905684402542_1_alg».proof.Proof.Gen.KernelIdeal.Skeleton
import proofs.«114913_j76905684402542_1_alg».proof.Proof.Gen.KernelIdeal.Launch
import proofs.«114913_j76905684402542_1_alg».proof.Proof.Gen.KernelIdeal.Points
import proofs.«114913_j76905684402542_1_alg».proof.Proof.Gen.KernelIdeal.Frame
import proofs.«114913_j76905684402542_1_alg».proof.Proof.Gen.ReferenceIdeal
import proofs.«114913_j76905684402542_1_alg».proof.Proof.Gen.Pre_finite_inputs
import proofs.«114913_j76905684402542_1_alg».proof.Proof.KernelIdealRun
import proofs.«114913_j76905684402542_1_alg».proof.Proof.RefRead
import proofs.«114913_j76905684402542_1_alg».proof.Proof.Layer2
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read at the ideal instance. -/
theorem frame_kernelIdeal : Cert.frame_KernelIdeal := fun m ρ _ => Cert.KernelIdeal.Gen.frame m ρ

/-- The reference runs and leaves its arguments as launched: its run, with the result's value dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the six arguments both programs end with the result array at the reference's
    result term of those arguments. -/
theorem algebraic : Cert.algebraic_KernelIdeal_ReferenceIdeal := by
  intro m ρ m' ρ' _ hagree
  refine ⟨fun c => Cert.ReferenceIdeal.ReadP.val_main_v64 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Layer2.out_at9 m ρ c), (h c).2⟩)
      (Cert.KernelIdeal.Run.run_result m ρ)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v64_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
